-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000 : Shape := ⟨1, ![200000]⟩
abbrev S200000x500 : Shape := ⟨2, ![200000, 500]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S_ : Shape := ⟨0, ![]⟩

class Facts : Prop where
  bcast_S_S200000 : S_.BroadcastsInDim S200000 (![] : Fin 0 → Fin S200000.rank)
  reducesTo_S200000_S_d0 : S200000.ReducesTo [0] S_
  h_S_ : 0 < S_.numel
  bcast_S_S200000x500 : S_.BroadcastsInDim S200000x500 (![] : Fin 0 → Fin S200000x500.rank)
  reducesTo_S200000x500_S_d0_1 : S200000x500.ReducesTo [0, 1] S_
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x7 : S_.BroadcastsInDim S64x7 (![] : Fin 0 → Fin S64x7.rank)
  reducesTo_S64x7_S_d0_1 : S64x7.ReducesTo [0, 1] S_
  bcast_S_S7 : S_.BroadcastsInDim S7 (![] : Fin 0 → Fin S7.rank)
  reducesTo_S7_S_d0 : S7.ReducesTo [0] S_

variable [Facts]

def fn_part2 {F : FTy → Type} [FloatOps F] (main_arg7 : FVec F S7 .f32) (main_v33 : IVec S_ 1) : IVec S_ 1 :=
  let main_v34 : FVec F S7 .f32 := Host.absf main_arg7
  let main_cst_12 : FVec F S_ .f32 := constant S_ .f32 0x7F800000#32
  let main_v35 : FVec F S7 .f32 := broadcastInDim S7 ![] bcast_S_S7 main_cst_12
  let main_v36 : IVec S7 1 := cmpf .olt main_v34 main_v35
  let main_c_13 : IVec S_ 1 := constantI S_ 1 1#1
  let main_v37 : IVec S_ 1 := (fun x v => Host.reduce IntOp.andi x v reducesTo_S7_S_d0 h_S_) main_v36 main_c_13
  let main_v38 : IVec S_ 1 := andi main_v33 main_v37
  main_v38

def fn_part1 {F : FTy → Type} [FloatOps F] (main_arg4 : FVec F S128x64 .f32) (main_arg5 : FVec F S64 .f32) (main_arg6 : FVec F S64x7 .f32) (main_arg7 : FVec F S7 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x7 .f32 := Host.absf main_arg6
  let main_cst_10 : FVec F S_ .f32 := constant S_ .f32 0x7F800000#32
  let main_v30 : FVec F S64x7 .f32 := broadcastInDim S64x7 ![] bcast_S_S64x7 main_cst_10
  let main_v31 : IVec S64x7 1 := cmpf .olt main_v29 main_v30
  let main_c_11 : IVec S_ 1 := constantI S_ 1 1#1
  let main_v32 : IVec S_ 1 := (fun x v => Host.reduce IntOp.andi x v reducesTo_S64x7_S_d0_1 h_S_) main_v31 main_c_11
  let main_v33 : IVec S_ 1 := andi main_v28 main_v32
  fn_part2 (F := F) main_arg7 main_v33

def fn {F : FTy → Type} [FloatOps F] (main_arg0 : FVec F S200000 .f32) (main_arg1 : FVec F S200000x500 .f32) (main_arg2 : FVec F S500x128 .f32) (main_arg3 : FVec F S128 .f32) (main_arg4 : FVec F S128x64 .f32) (main_arg5 : FVec F S64 .f32) (main_arg6 : FVec F S64x7 .f32) (main_arg7 : FVec F S7 .f32) : IVec S_ 1 :=
  let main_v0 : FVec F S200000 .f32 := Host.absf main_arg0
  let main_cst : FVec F S_ .f32 := constant S_ .f32 0x7F800000#32
  let main_v1 : FVec F S200000 .f32 := broadcastInDim S200000 ![] bcast_S_S200000 main_cst
  let main_v2 : IVec S200000 1 := cmpf .olt main_v0 main_v1
  let main_c : IVec S_ 1 := constantI S_ 1 1#1
  let main_v3 : IVec S_ 1 := (fun x v => Host.reduce IntOp.andi x v reducesTo_S200000_S_d0 h_S_) main_v2 main_c
  let main_v4 : FVec F S200000x500 .f32 := Host.absf main_arg1
  let main_cst_0 : FVec F S_ .f32 := constant S_ .f32 0x7F800000#32
  let main_v5 : FVec F S200000x500 .f32 := broadcastInDim S200000x500 ![] bcast_S_S200000x500 main_cst_0
  let main_v6 : IVec S200000x500 1 := cmpf .olt main_v4 main_v5
  let main_c_1 : IVec S_ 1 := constantI S_ 1 1#1
  let main_v7 : IVec S_ 1 := (fun x v => Host.reduce IntOp.andi x v reducesTo_S200000x500_S_d0_1 h_S_) main_v6 main_c_1
  let main_v8 : IVec S_ 1 := andi main_v3 main_v7
  let main_v9 : FVec F S500x128 .f32 := Host.absf main_arg2
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S200000 : Shape := ⟨1, ![200000]⟩
abbrev S200000x500 : Shape := ⟨2, ![200000, 500]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S1x128 : Shape := ⟨2, ![1, 128]⟩
abbrev S1x64 : Shape := ⟨2, ![1, 64]⟩
abbrev S1x7 : Shape := ⟨2, ![1, 7]⟩
abbrev S200000x7 : Shape := ⟨2, ![200000, 7]⟩
abbrev S5000x500 : Shape := ⟨2, ![5000, 500]⟩
abbrev S5000x7 : Shape := ⟨2, ![5000, 7]⟩
abbrev S5000x128 : Shape := ⟨2, ![5000, 128]⟩
abbrev S5000x64 : Shape := ⟨2, ![5000, 64]⟩

abbrev nBuf : Space → Nat
  | .hbm => 12
  | .vmem => 10
  | .smem => 0
  | _ => 0

abbrev bufTy : (tb : Table) → Fin (tcTables nBuf tb) → BufTy
  | .hbm, ⟨0, _⟩ => ⟨S200000, .f32⟩
  | .hbm, ⟨1, _⟩ => ⟨S200000x500, .f32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x7, .f32⟩
  | .hbm, ⟨7, _⟩ => ⟨S7, .f32⟩
  | .hbm, ⟨8, _⟩ => ⟨S1x128, .f32⟩
  | .hbm, ⟨9, _⟩ => ⟨S1x64, .f32⟩
  | .hbm, ⟨10, _⟩ => ⟨S1x7, .f32⟩
  | .hbm, ⟨11, _⟩ => ⟨S200000x7, .f32⟩
  | .local _ .vmem, ⟨0, _⟩ => ⟨S5000x500, .f32⟩
  | .local _ .vmem, ⟨1, _⟩ => ⟨S5000x500, .f32⟩
  | .local _ .vmem, ⟨2, _⟩ => ⟨S500x128, .f32⟩
  | .local _ .vmem, ⟨3, _⟩ => ⟨S1x128, .f32⟩
  | .local _ .vmem, ⟨4, _⟩ => ⟨S128x64, .f32⟩
  | .local _ .vmem, ⟨5, _⟩ => ⟨S1x64, .f32⟩
  | .local _ .vmem, ⟨6, _⟩ => ⟨S64x7, .f32⟩
  | .local _ .vmem, ⟨7, _⟩ => ⟨S1x7, .f32⟩
  | .local _ .vmem, ⟨8, _⟩ => ⟨S5000x7, .f32⟩
  | .local _ .vmem, ⟨9, _⟩ => ⟨S5000x7, .f32⟩
  | _, _ => ⟨S200000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x7 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x7 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x7 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S128_S1x128 : S128.ShapeCasts S1x128
  shapeCasts_S64_S1x64 : S64.ShapeCasts S1x64
  shapeCasts_S7_S1x7 : S7.ShapeCasts S1x7
  inb_S5000x500_S5000x500_0_0 : ∀ a, (![0, 0] : Fin 2 → Nat) a + S5000x500.size a ≤ S5000x500.size a
  h_S5000x500 : 0 < S5000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x7_S64x7_0_0 : ∀ a, (![0, 0] : Fin 2 → Nat) a + S64x7.size a ≤ S64x7.size a
  h_S64x7 : 0 < S64x7.numel
  inb_S1x7_S1x7_0_0 : ∀ a, (![0, 0] : Fin 2 → Nat) a + S1x7.size a ≤ S1x7.size a
  h_S1x7 : 0 < S1x7.numel
  shapeCasts_S1x7_S1x7 : S1x7.ShapeCasts S1x7
  broadcasts_S1x7_S5000x7 : S1x7.Broadcasts S5000x7
  inb_S5000x7_S5000x7_0_0 : ∀ a, (![0, 0] : Fin 2 → Nat) a + S5000x7.size a ≤ S5000x7.size a
  h_S5000x7 : 0 < S5000x7.numel
  dot_S5000x500_S500x128_S5000x128_1_0_0_1_n_n_wf : DotDims.WF S5000x500 S500x128 S5000x128 [1] [0] [0] [1] [] []
  dot_S5000x128_S128x64_S5000x64_1_0_0_1_n_n_wf : DotDims.WF S5000x128 S128x64 S5000x64 [1] [0] [0] [1] [] []
  dot_S5000x64_S64x7_S5000x7_1_0_0_1_n_n_wf : DotDims.WF S5000x64 S64x7 S5000x7 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x500.size a ≤ S200000x500.size a
  hwx0_0 : ∀ i : grid0.Coords, EltTy.bits .f32 = 32 ∨ (Rect.block (s := S200000x500) S5000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x7.size a ≤ S64x7.size a
  hwx0_5 : ∀ i : grid0.Coords, EltTy.bits .f32 = 32 ∨ (Rect.block (s := S64x7) S64x7.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x7.size a ≤ S1x7.size a
  hwx0_6 : ∀ i : grid0.Coords, EltTy.bits .f32 = 32 ∨ (Rect.block (s := S1x7) S1x7.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x7.size a ≤ S200000x7.size a
  hwx0_7 : ∀ i : grid0.Coords, EltTy.bits .f32 = 32 ∨ (Rect.block (s := S200000x7) S5000x7.size (cc0_transform_7 i) (hinb0_7 i)).WholeWords (EltTy.packing .f32)

variable [Facts₀]

def dot_S5000x500_S500x128_S5000x128_1_0_0_1_n_n : DotDims S5000x500 S500x128 S5000x128 where
  lhsContracting := [1]
  rhsContracting := [0]
  lhsNonContracting := [0]
  rhsNonContracting := [1]
  lhsBatch := []
  rhsBatch := []
  wf := dot_S5000x500_S500x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x7_S5000x7_1_0_0_1_n_n : DotDims S5000x64 S64x7 S5000x7 where
  lhsContracting := [1]
  rhsContracting := [0]
  lhsNonContracting := [0]
  rhsNonContracting := [1]
  lhsBatch := []
  rhsBatch := []
  wf := dot_S5000x64_S64x7_S5000x7_1_0_0_1_n_n_wf

abbrev win0_0 : Pipeline.Window sig grid0 :=
  Pipeline.Window.ofSpec (Memref.whole main_arg1) S5000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S64x7.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x7.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S5000x7.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S200000 : Shape := ⟨1, ![200000]⟩
abbrev S200000x500 : Shape := ⟨2, ![200000, 500]⟩
abbrev S500x128 : Shape := ⟨2, ![500, 128]⟩
abbrev S128 : Shape := ⟨1, ![128]⟩
abbrev S128x64 : Shape := ⟨2, ![128, 64]⟩
abbrev S64 : Shape := ⟨1, ![64]⟩
abbrev S64x7 : Shape := ⟨2, ![64, 7]⟩
abbrev S7 : Shape := ⟨1, ![7]⟩
abbrev S200000x128 : Shape := ⟨2, ![200000, 128]⟩
abbrev S1x128 : Shape := ⟨2, ![1, 128]⟩
abbrev S_ : Shape := ⟨0, ![]⟩
abbrev S200000x64 : Shape := ⟨2, ![200000, 64]⟩
abbrev S1x64 : Shape := ⟨2, ![1, 64]⟩
abbrev S200000x7 : Shape := ⟨2, ![200000, 7]⟩
abbrev S1x7 : Shape := ⟨2, ![1, 7]⟩

abbrev nBuf : Space → Nat
  | .hbm => 26
  | .vmem => 0
  | .smem => 0
  | _ => 0

abbrev bufTy : (tb : Table) → Fin (tcTables nBuf tb) → BufTy
  | .hbm, ⟨0, _⟩ => ⟨S200000, .f32⟩
  | .hbm, ⟨1, _⟩ => ⟨S200000x500, .f32⟩
  | .hbm, ⟨2, _⟩ => ⟨S500x128, .f32⟩
  | .hbm, ⟨3, _⟩ => ⟨S128, .f32⟩
  | .hbm, ⟨4, _⟩ => ⟨S128x64, .f32⟩
  | .hbm, ⟨5, _⟩ => ⟨S64, .f32⟩
  | .hbm, ⟨6, _⟩ => ⟨S64x7, .f32⟩
  | .hbm, ⟨7, _⟩ => ⟨S7, .f32⟩
  | .hbm, ⟨8, _⟩ => ⟨S200000x128, .f32⟩
  | .hbm, ⟨9, _⟩ => ⟨S1x128, .f32⟩
  | .hbm, ⟨10, _⟩ => ⟨S200000x128, .f32⟩
  | .hbm, ⟨11, _⟩ => ⟨S200000x128, .f32⟩
  | .hbm, ⟨12, _⟩ => ⟨S_, .f32⟩
  | .hbm, ⟨13, _⟩ => ⟨S200000x128, .f32⟩
  | .hbm, ⟨14, _⟩ => ⟨S200000x128, .f32⟩
  | .hbm, ⟨15, _⟩ => ⟨S200000x64, .f32⟩
  | .hbm, ⟨16, _⟩ => ⟨S1x64, .f32⟩
  | .hbm, ⟨17, _⟩ => ⟨S200000x64, .f32⟩
  | .hbm, ⟨18, _⟩ => ⟨S200000x64, .f32⟩
  | .hbm, ⟨19, _⟩ => ⟨S_, .f32⟩
  | .hbm, ⟨20, _⟩ => ⟨S200000x64, .f32⟩
  | .hbm, ⟨21, _⟩ => ⟨S200000x64, .f32⟩
  | .hbm, ⟨22, _⟩ => ⟨S200000x7, .f32⟩
  | .hbm, ⟨23, _⟩ => ⟨S1x7, .f32⟩
  | .hbm, ⟨24, _⟩ => ⟨S200000x7, .f32⟩
  | .hbm, ⟨25, _⟩ => ⟨S200000x7, .f32⟩
  | _, _ => ⟨S200000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_call0_cst : Ref sig .tc := ⟨.hbm, 12, rfl⟩
abbrev main_call0_v0 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_call1_cst : Ref sig .tc := ⟨.hbm, 19, rfl⟩
abbrev main_call1_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S200000x128_0_1 : S1x128.BroadcastsInDim S200000x128 (![0, 1] : Fin 2 → Fin S200000x128.rank)
  bcast_S_S200000x128 : S_.BroadcastsInDim S200000x128 (![] : Fin 0 → Fin S200000x128.rank)
  bcast_S64_S1x64_1 : S64.BroadcastsInDim S1x64 (![1] : Fin 1 → Fin S1x64.rank)
  bcast_S1x64_S200000x64_0_1 : S1x64.BroadcastsInDim S200000x64 (![0, 1] : Fin 2 → Fin S200000x64.rank)
  bcast_S_S200000x64 : S_.BroadcastsInDim S200000x64 (![] : Fin 0 → Fin S200000x64.rank)
  bcast_S7_S1x7_1 : S7.BroadcastsInDim S1x7 (![1] : Fin 1 → Fin S1x7.rank)
  bcast_S1x7_S200000x7_0_1 : S1x7.BroadcastsInDim S200000x7 (![0, 1] : Fin 2 → Fin S200000x7.rank)
  dot_S200000x500_S500x128_S200000x128_1_0_0_1_n_n_wf : DotDims.WF S200000x500 S500x128 S200000x128 [1] [0] [0] [1] [] []
  dot_S200000x128_S128x64_S200000x64_1_0_0_1_n_n_wf : DotDims.WF S200000x128 S128x64 S200000x64 [1] [0] [0] [1] [] []
  dot_S200000x64_S64x7_S200000x7_1_0_0_1_n_n_wf : DotDims.WF S200000x64 S64x7 S200000x7 [1] [0] [0] [1] [] []

variable [Facts₀]

def dot_S200000x500_S500x128_S200000x128_1_0_0_1_n_n : DotDims S200000x500 S500x128 S200000x128 where
  lhsContracting := [1]
  rhsContracting := [0]
  lhsNonContracting := [0]
  rhsNonContracting := [1]
  lhsBatch := []
  rhsBatch := []
  wf := dot_S200000x500_S500x128_S200000x128_1_0_0_1_n_n_wf
def dot_S200000x128_S128x64_S200000x64_1_0_0_1_n_n : DotDims S200000x128 S128x64 S200000x64 where
  lhsContracting := [1]
  rhsContracting := [0]
  lhsNonContracting := [0]
  rhsNonContracting := [1]
  lhsBatch := []
  rhsBatch := []
  wf := dot_S200000x128_S128x64_S200000x64_1_0_0_1_n_n_wf
def dot_S200000x64_S64x7_S200000x7_1_0_0_1_n_n : DotDims S200000x64 S64x7 S200000x7 where
  lhsContracting := [1]
  rhsContracting := [0]
  lhsNonContracting := [0]
  rhsNonContracting := [1]
  lhsBatch := []
  rhsBatch := []
  wf := dot_S200000x64_S64x7_S200000x7_1_0_0_1_n_n_wf

class Facts : Prop extends Facts₀ where

variable [Facts]
-- ==== Proof.LibDot.lean ====
/-
  A matrix product with one contracted axis, read at one element of its result.

  A product of a rank-2 left operand and a rank-2 right operand with a single contracted axis on each side and
  no batch axis is, at an output position, the sum over the contracted coordinate of the two operands' entries
  there. The file states this for the three arrangements of axes a dense layer meets: rows by columns
  (left contracted on axis 1, right on axis 0), a left operand contracted on its FIRST axis against a right
  operand contracted on its last (the product written transposed), and both operands contracted on their first
  axis. Each lemma is generic in the extents and takes the dimension record's lists as hypotheses, which a
  printed record supplies by rfl.
-/
import Idealize.ShloMosaic.PureOps.Ideal
import Idealize.ShloMosaic.PureOps.Ideal.Laws
import Idealize.ShloMosaic.Lib.ValueIdx

open scoped BigOperators

namespace Cert.Lib.Dot

open Idealize.ShloMosaic
open Idealize.ShloMosaic.ValueIdx

variable {sl sr so : Shape} (d : DotDims sl sr so)

/-- Two reads of an index at positions with equal values agree. -/
theorem idx_val_congr {s : Shape} (j : s.Idx) (p q : Nat) (hp : p < s.rank) (hq : q < s.rank) (h : p = q) :
    (j ⟨p, hp⟩).val = (j ⟨q, hq⟩).val := by subst h; rfl

/-- With no batch axis and one kept left axis, the left operand's index on that axis is the result's first
    coordinate. -/
theorem lhsIdx_val_kept {nl : Fin sl.rank} (hb : d.lhsBatch = []) (hn : d.lhsNonContracting = [nl])
    (j : so.Idx) (k : d.contr.Idx) (h0 : 0 < so.rank) : (d.lhsIdx j k nl).val = (j ⟨0, h0⟩).val := by
  have hnb : nl ∉ d.lhsBatch := by rw [hb]; exact List.not_mem_nil
  have hmem : nl ∈ d.lhsNonContracting := by rw [hn]; exact List.mem_singleton.mpr rfl
  unfold DotDims.lhsIdx
  rw [dif_neg hnb, dif_pos hmem]
  simp only [Fin.val_cast]
  exact idx_val_congr j _ _ _ _ (by simp [hb, hn])

/-- With no batch axis, one kept left axis and one kept right axis, the right operand's index on its kept axis
    is the result's second coordinate. -/
theorem rhsIdx_val_kept {nl : Fin sl.rank} {nr : Fin sr.rank} (hlb : d.lhsBatch = []) (hrb : d.rhsBatch = [])
    (hln : d.lhsNonContracting = [nl]) (hrn : d.rhsNonContracting = [nr])
    (j : so.Idx) (k : d.contr.Idx) (h1 : 1 < so.rank) : (d.rhsIdx j k nr).val = (j ⟨1, h1⟩).val := by
  have hnb : nr ∉ d.rhsBatch := by rw [hrb]; exact List.not_mem_nil
  have hmem : nr ∈ d.rhsNonContracting := by rw [hrn]; exact List.mem_singleton.mpr rfl
  unfold DotDims.rhsIdx
  rw [dif_neg hnb, dif_pos hmem]
  simp only [Fin.val_cast]
  exact idx_val_congr j _ _ _ _ (by simp [hlb, hln, hrn])

/-- One contracted axis: the contraction shape has rank one. -/
theorem contr_rank_one {cl : Fin sl.rank} (hc : d.lhsContracting = [cl]) : d.contr.rank = 1 := by
  rw [d.rank_contr, hc]; rfl

/-- One contracted axis: the contraction shape's extent is the left operand's extent on that axis. -/
theorem contr_size_one {cl : Fin sl.rank} (hc : d.lhsContracting = [cl]) :
    d.contr.size ⟨0, by rw [contr_rank_one d hc]; exact Nat.one_pos⟩ = sl.size cl := by
  have h := d.size_contr 0 (by rw [hc]; exact Nat.one_pos)
  rw [h]
  exact congrArg sl.size (by simp [hc])

/-! ## The three arrangements, as sums over the contracted coordinate -/

section Arrangements

open Cert.Lib.Dot

/-- Rows by columns: the left operand [M, K] contracted on axis 1, the right [K, N] on axis 0. -/
theorem sum_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 p k) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 p k := by
    funext a; refine Fin.ext ?_
    match a with
    | ⟨0, _⟩ => exact lhsIdx_val_kept d hlb hln _ _ Nat.zero_lt_two
    | ⟨1, _⟩ => exact (d.lhsIdx_val_of_single hlc _ _).trans (contrEquiv1_symm_val d K _ _ k)
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-- The product written transposed: the left operand [K, M] contracted on axis 0, the right [N, K] on axis 1;
    the result is [M, N]. -/
theorem sum_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    ∑ k : d.contr.Idx, l (d.lhsIdx (ix2 p q) k) * r (d.rhsIdx (ix2 p q) k) = ∑ k : Fin K, l (ix2 k p) * r (ix2 q k) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 q k := by
    funext a; refine Fin.ext ?_
    match a with
    | ⟨0, _⟩ => exact rhsIdx_val_kept d hlb hrb hln hrn _ _ Nat.one_lt_two
    | ⟨1, _⟩ => exact (d.rhsIdx_val_of_single hrc _ _).trans (contrEquiv1_symm_val d K _ _ k)
  rw [e1, e2]

/-- Both operands contracted on their first axis: the left [K, M], the right [K, N]; the result is [M, N]. -/
theorem sum_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    ∑ k : d.contr.Idx, l (d.lhsIdx (ix2 p q) k) * r (d.rhsIdx (ix2 p q) k) = ∑ k : Fin K, l (ix2 k p) * r (ix2 k q) := by
  rw [← Equiv.sum_comp (contrEquiv1 d K (contr_rank_one d hlc) (contr_size_one d hlc)).symm]
  refine Finset.sum_congr rfl fun k _ => ?_
  have e1 : d.lhsIdx (ix2 p q) ((contrEquiv1 d K (contr_rank_one d hlc) (contr_size_one d hlc)).symm k) = ix2 k p := by
    funext a; refine Fin.ext ?_
    match a with
    | ⟨0, _⟩ => exact (d.lhsIdx_val_of_single hlc _ _).trans (contrEquiv1_symm_val d K _ _ k)
    | ⟨1, _⟩ => exact lhsIdx_val_kept d hlb hln _ _ Nat.zero_lt_two
  have e2 : d.rhsIdx (ix2 p q) ((contrEquiv1 d K (contr_rank_one d hlc) (contr_size_one d hlc)).symm k) = ix2 k q := by
    funext a; refine Fin.ext ?_
    match a with
    | ⟨0, _⟩ => exact (d.rhsIdx_val_of_single hrc _ _).trans (contrEquiv1_symm_val d K _ _ k)
    | ⟨1, _⟩ => exact rhsIdx_val_kept d hlb hrb hln hrn _ _ Nat.one_lt_two
  rw [e1, e2]

/-! ## The three arrangements as properties of a dimension record (a printed record proves each by six rfl's) -/

/-- Rows by columns: left contracted on axis 1, right on axis 0, no batch axis. -/
def IsRowsCols {M K N : Nat} (d : DotDims ⟨2, ![M, K]⟩ ⟨2, ![K, N]⟩ ⟨2, ![M, N]⟩) : Prop :=
  d.lhsContracting = [1] ∧ d.rhsContracting = [0] ∧ d.lhsNonContracting = [0] ∧ d.rhsNonContracting = [1]
    ∧ d.lhsBatch = [] ∧ d.rhsBatch = []

/-- Left contracted on axis 0, right on axis 1, no batch axis. -/
def IsColsRows {M K N : Nat} (d : DotDims ⟨2, ![K, M]⟩ ⟨2, ![N, K]⟩ ⟨2, ![M, N]⟩) : Prop :=
  d.lhsContracting = [0] ∧ d.rhsContracting = [1] ∧ d.lhsNonContracting = [1] ∧ d.rhsNonContracting = [0]
    ∧ d.lhsBatch = [] ∧ d.rhsBatch = []

/-- Both contracted on axis 0, no batch axis. -/
def IsColsCols {M K N : Nat} (d : DotDims ⟨2, ![K, M]⟩ ⟨2, ![K, N]⟩ ⟨2, ![M, N]⟩) : Prop :=
  d.lhsContracting = [0] ∧ d.rhsContracting = [0] ∧ d.lhsNonContracting = [1] ∧ d.rhsNonContracting = [1]
    ∧ d.lhsBatch = [] ∧ d.rhsBatch = []

/-! ## The host product and the kernel's product into a zero accumulator, read at an element -/

/-- The host's rows-by-columns product at (p, q). -/
theorem hostDot_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  (Ideal.dotGeneral_apply d none .single l r (ix2 p q)).trans (sum_rows_cols d hlc hrc hln hrn hlb hrb l r p q)

/-- The kernel's rows-by-columns product into a zero accumulator at (p, q). -/
theorem matmul0_rows_cols {M K N : Nat} {φ₁ φ₂ : FTy} (d : DotDims ⟨2, ![M, K]⟩ ⟨2, ![K, N]⟩ ⟨2, ![M, N]⟩)
    (hlc : d.lhsContracting = [1]) (hrc : d.rhsContracting = [0]) (hln : d.lhsNonContracting = [0])
    (hrn : d.rhsNonContracting = [1]) (hlb : d.lhsBatch = []) (hrb : d.rhsBatch = [])
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  (Ideal.matmul_constant_zero_apply d none l r (ix2 p q)).trans (sum_rows_cols d hlc hrc hln hrn hlb hrb l r p q)

/-- The kernel's transposed product into a zero accumulator at (p, q). -/
theorem matmul0_cols_rows {M K N : Nat} {φ₁ φ₂ : FTy} (d : DotDims ⟨2, ![K, M]⟩ ⟨2, ![N, K]⟩ ⟨2, ![M, N]⟩)
    (hlc : d.lhsContracting = [0]) (hrc : d.rhsContracting = [1]) (hln : d.lhsNonContracting = [1])
    (hrn : d.rhsNonContracting = [0]) (hlb : d.lhsBatch = []) (hrb : d.rhsBatch = [])
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  (Ideal.matmul_constant_zero_apply d none l r (ix2 p q)).trans (sum_cols_rows d hlc hrc hln hrn hlb hrb l r p q)

/-- The kernel's product of two operands contracted on their first axes, into a zero accumulator, at (p, q). -/
theorem matmul0_cols_cols {M K N : Nat} {φ₁ φ₂ : FTy} (d : DotDims ⟨2, ![K, M]⟩ ⟨2, ![K, N]⟩ ⟨2, ![M, N]⟩)
    (hlc : d.lhsContracting = [0]) (hrc : d.rhsContracting = [0]) (hln : d.lhsNonContracting = [1])
    (hrn : d.rhsNonContracting = [1]) (hlb : d.lhsBatch = []) (hrb : d.rhsBatch = [])
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  (Ideal.matmul_constant_zero_apply d none l r (ix2 p q)).trans (sum_cols_cols d hlc hrc hln hrn hlb hrb l r p q)

/-- The host's rows-by-columns product at (p, q), from the record's property. -/
theorem hostDot_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    Host.dotGeneral (F := Ideal) d none l r (ix2 p q) = ∑ k : Fin K, l (ix2 p k) * r (ix2 k q) :=
  hostDot_rows_cols d h.1 h.2.1 h.2.2.1 h.2.2.2.1 h.2.2.2.2.1 h.2.2.2.2.2 l r p q

/-- The kernel's rows-by-columns product into zeros at (p, q), from the record's property. -/
theorem matmul0_rc {M K N : Nat} {φ₁ φ₂ : FTy} (d : DotDims ⟨2, ![M, K]⟩ ⟨2, ![K, N]⟩ ⟨2, ![M, N]⟩) (h : IsRowsCols d)
    (l : FVec Ideal ⟨2, ![M, K]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 p k) * r (ix2 k q) :=
  matmul0_rows_cols d h.1 h.2.1 h.2.2.1 h.2.2.2.1 h.2.2.2.2.1 h.2.2.2.2.2 l r p q

/-- The kernel's transposed product into zeros at (p, q), from the record's property. -/
theorem matmul0_cr {M K N : Nat} {φ₁ φ₂ : FTy} (d : DotDims ⟨2, ![K, M]⟩ ⟨2, ![N, K]⟩ ⟨2, ![M, N]⟩) (h : IsColsRows d)
    (l : FVec Ideal ⟨2, ![K, M]⟩ φ₁) (r : FVec Ideal ⟨2, ![N, K]⟩ φ₂) (p : Fin M) (q : Fin N) :
    matmul (F := Ideal) d none l r (constant ⟨2, ![M, N]⟩ .f32 0x00000000#32) (ix2 p q)
      = ∑ k : Fin K, l (ix2 k p) * r (ix2 q k) :=
  matmul0_cols_rows d h.1 h.2.1 h.2.2.1 h.2.2.2.1 h.2.2.2.2.1 h.2.2.2.2.2 l r p q

/-- The kernel's product of two operands contracted on their first axes, into zeros, at (p, q), from the record's
    property. -/
theorem matmul0_cc {M K N : Nat} {φ₁ φ₂ : FTy} (d : DotDims ⟨2, ![K, M]⟩ ⟨2, ![K, N]⟩ ⟨2, ![M, N]⟩) (h : IsColsCols d)
    (l : FVec Ideal ⟨2, ![K, M]⟩ φ₁) (r : FVec Ideal ⟨2, ![K, N]⟩ φ₂) (p : Fin M) (q : Fin N) :
    matmul (F := Ideal) d none l r (constant ⟨2, ![M, N]⟩ .f32 0x00000000#32) (ix2 p q)
      = ∑ k : Fin K, l (ix2 k p) * r (ix2 k q) :=
  matmul0_cols_cols d h.1 h.2.1 h.2.2.1 h.2.2.2.1 h.2.2.2.2.1 h.2.2.2.2.2 l r p q

end Arrangements

end Cert.Lib.Dot
-- ==== Proof.Dense.lean ====
/-
  A dense layer read row by row, and the three-layer perceptron made of three of them.

  A dense layer sends a matrix x [M, K], a weight matrix w [K, N] and a bias b [N] to the matrix whose entry
  (i, j) is the sum over k of x (i, k) * w (k, j), plus b j. Clamping at zero is entry by entry. The perceptron
  is layer, clamp, layer, clamp, layer. Every entry of the result in row i depends on x only through row i of x:
  a matrix x' whose rows are rows of x (row p of x' is row f p of x) gives the rows f p of the result. That is
  what lets a program that works on blocks of rows be compared with one that works on the whole matrix.

  On the extended reals nothing here needs finiteness: both programs form the same sums of the same products.
-/
import Idealize.ShloMosaic.PureOps.Ideal
import Idealize.ShloMosaic.PureOps.Ideal.Laws
import Idealize.ShloMosaic.Lib.ValueIdx
import Idealize.ShloMosaic.Lib.Pipeline.Value
import proofs.«424103_j16801912062026_3_alg».proof.Proof.LibDot

open scoped BigOperators

noncomputable section

namespace Cert.Mlp

open Idealize.ShloMosaic
open Idealize.ShloMosaic.ValueIdx

/-- The value both programs clamp at: the float word of all zero bits, kept as that word. -/
abbrev zero : EReal := Ideal.ofBits .f32 0x00000000#32

/-- A dense layer: entry (i, j) is row i of `x` against column j of `w`, plus `b j`. -/
def dense {M K N : Nat} (x : (⟨2, ![M, K]⟩ : Shape).Idx → EReal) (w : (⟨2, ![K, N]⟩ : Shape).Idx → EReal)
    (b : Fin N → EReal) : (⟨2, ![M, N]⟩ : Shape).Idx → EReal :=
  fun i => (∑ k : Fin K, x (ix2 (i 0) k) * w (ix2 k (i 1))) + b (i 1)

/-- Clamping at zero from below, entry by entry. -/
def clamp {s : Shape} (x : s.Idx → EReal) : s.Idx → EReal := fun i => max (x i) zero

/-- Three dense layers with a clamp after the first and after the second. -/
def mlp {M K A B N : Nat} (x : (⟨2, ![M, K]⟩ : Shape).Idx → EReal)
    (w1 : (⟨2, ![K, A]⟩ : Shape).Idx → EReal) (b1 : Fin A → EReal)
    (w2 : (⟨2, ![A, B]⟩ : Shape).Idx → EReal) (b2 : Fin B → EReal)
    (w3 : (⟨2, ![B, N]⟩ : Shape).Idx → EReal) (b3 : Fin N → EReal) : (⟨2, ![M, N]⟩ : Shape).Idx → EReal :=
  dense (clamp (dense (clamp (dense x w1 b1)) w2 b2)) w3 b3

/-- The perceptron of this certificate's argument arrays: 200000 feature rows of 500, layers of 128, 64 and 7,
    the biases given as vectors. -/
abbrev G (X : (⟨2, ![200000, 500]⟩ : Shape).Idx → EReal)
    (W1 : (⟨2, ![500, 128]⟩ : Shape).Idx → EReal) (B1 : (⟨1, ![128]⟩ : Shape).Idx → EReal)
    (W2 : (⟨2, ![128, 64]⟩ : Shape).Idx → EReal) (B2 : (⟨1, ![64]⟩ : Shape).Idx → EReal)
    (W3 : (⟨2, ![64, 7]⟩ : Shape).Idx → EReal) (B3 : (⟨1, ![7]⟩ : Shape).Idx → EReal) :
    (⟨2, ![200000, 7]⟩ : Shape).Idx → EReal :=
  mlp X W1 (fun a => B1 (ix1 a)) W2 (fun a => B2 (ix1 a)) W3 (fun a => B3 (ix1 a))

theorem dense_apply {M K N : Nat} (x : (⟨2, ![M, K]⟩ : Shape).Idx → EReal) (w : (⟨2, ![K, N]⟩ : Shape).Idx → EReal)
    (b : Fin N → EReal) (p : Fin M) (q : Fin N) :
    dense x w b (ix2 p q) = (∑ k : Fin K, x (ix2 p k) * w (ix2 k q)) + b q := rfl

theorem clamp_apply {s : Shape} (x : s.Idx → EReal) (i : s.Idx) : clamp x i = max (x i) zero := rfl

/-! ## Rows are independent -/

/-- A dense layer of a matrix whose rows are rows of `x` has the corresponding rows of the layer of `x`. -/
theorem dense_rows {M M' K N : Nat} (x : (⟨2, ![M, K]⟩ : Shape).Idx → EReal) (x' : (⟨2, ![M', K]⟩ : Shape).Idx → EReal)
    (f : Fin M' → Fin M) (h : ∀ p k, x' (ix2 p k) = x (ix2 (f p) k))
    (w : (⟨2, ![K, N]⟩ : Shape).Idx → EReal) (b : Fin N → EReal) (p : Fin M') (q : Fin N) :
    dense x' w b (ix2 p q) = dense x w b (ix2 (f p) q) := by
  rw [dense_apply, dense_apply]
  simp only [h]

/-- The same for the clamp. -/
theorem clamp_rows {M M' K : Nat} (x : (⟨2, ![M, K]⟩ : Shape).Idx → EReal) (x' : (⟨2, ![M', K]⟩ : Shape).Idx → EReal)
    (f : Fin M' → Fin M) (h : ∀ p k, x' (ix2 p k) = x (ix2 (f p) k)) (p : Fin M') (k : Fin K) :
    clamp x' (ix2 p k) = clamp x (ix2 (f p) k) := by
  rw [clamp_apply, clamp_apply, h]

/-- So the perceptron of a matrix whose rows are rows of `x` has the corresponding rows of the perceptron of `x`. -/
theorem mlp_rows {M M' K A B N : Nat} (x : (⟨2, ![M, K]⟩ : Shape).Idx → EReal) (x' : (⟨2, ![M', K]⟩ : Shape).Idx → EReal)
    (f : Fin M' → Fin M) (h : ∀ p k, x' (ix2 p k) = x (ix2 (f p) k))
    (w1 : (⟨2, ![K, A]⟩ : Shape).Idx → EReal) (b1 : Fin A → EReal)
    (w2 : (⟨2, ![A, B]⟩ : Shape).Idx → EReal) (b2 : Fin B → EReal)
    (w3 : (⟨2, ![B, N]⟩ : Shape).Idx → EReal) (b3 : Fin N → EReal) (p : Fin M') (q : Fin N) :
    mlp x' w1 b1 w2 b2 w3 b3 (ix2 p q) = mlp x w1 b1 w2 b2 w3 b3 (ix2 (f p) q) :=
  dense_rows _ _ f (clamp_rows _ _ f (dense_rows _ _ f (clamp_rows _ _ f (dense_rows x x' f h w1 b1)) w2 b2)) w3 b3 p q

/-! ## One layer as each program spells it -/

/-- The blocked program's layer: both operands narrowed (the identity on extended reals), multiplied into a zero
    accumulator, and a [1, N] bias row added to every row, is the dense layer with that row as bias. -/
theorem matmul_layer {M K N : Nat} (d : DotDims ⟨2, ![M, K]⟩ ⟨2, ![K, N]⟩ ⟨2, ![M, N]⟩) (hd : Cert.Lib.Dot.IsRowsCols d)
    (x : FVec Ideal ⟨2, ![M, K]⟩ .f32) (w : FVec Ideal ⟨2, ![K, N]⟩ .f32) (bb : FVec Ideal ⟨2, ![1, N]⟩ .f32)
    (hx : FTy.bf16.bits < FTy.f32.bits)
    (hsc : (⟨2, ![1, N]⟩ : Shape).ShapeCasts ⟨2, ![1, N]⟩) (hb : (⟨2, ![1, N]⟩ : Shape).Broadcasts ⟨2, ![M, N]⟩) :
    addf (matmul (F := Ideal) d none (truncf .bf16 x hx) (truncf .bf16 w hx) (constant ⟨2, ![M, N]⟩ .f32 0x00000000#32))
        (broadcastTo ⟨2, ![M, N]⟩ (shapeCast ⟨2, ![1, N]⟩ bb hsc) hb)
      = dense x w (fun a => bb (ix2 0 a)) := by
  funext j
  obtain ⟨p, q, rfl⟩ : ∃ (p : Fin M) (q : Fin N), j = ix2 p q := ⟨j 0, j 1, eq_ix2 j⟩
  rw [addf_apply, Cert.Lib.Dot.matmul0_rc d hd, shapeCast_self, dense_apply]
  congr 1
  refine broadcastTo_apply bb hb (ix2 p q) (ix2 0 q) (fun a => ?_)
  match a with
  | ⟨0, _⟩ => show 0 = if (1 : Nat) = 1 then 0 else _; rw [if_pos rfl]
  | ⟨1, _⟩ =>
    show q.val = if N = 1 then 0 else q.val
    split_ifs with hN
    · have := q.isLt; omega
    · rfl

/-- The clamp as the blocked program spells it: the maximum with a splat of the zero word. -/
theorem max_splat {s : Shape} (x : FVec Ideal s .f32) :
    maximumf x (broadcast s (FloatOps.ofBits (F := Ideal) .f32 0x00000000#32)) = clamp x := rfl

/-- The whole-matrix program's layer: the host's product, and a bias [N] laid out as a [1, N] row and then
    repeated down the rows, added, is the dense layer with that bias. -/
theorem host_layer {M K N : Nat} (d : DotDims ⟨2, ![M, K]⟩ ⟨2, ![K, N]⟩ ⟨2, ![M, N]⟩) (hd : Cert.Lib.Dot.IsRowsCols d)
    (x : FVec Ideal ⟨2, ![M, K]⟩ .f32) (w : FVec Ideal ⟨2, ![K, N]⟩ .f32) (b : FVec Ideal ⟨1, ![N]⟩ .f32)
    (h1 : (⟨1, ![N]⟩ : Shape).BroadcastsInDim ⟨2, ![1, N]⟩ ![1])
    (h2 : (⟨2, ![1, N]⟩ : Shape).BroadcastsInDim ⟨2, ![M, N]⟩ ![0, 1]) :
    addf (Host.dotGeneral (F := Ideal) d none x w)
        (broadcastInDim ⟨2, ![M, N]⟩ ![0, 1] h2 (broadcastInDim ⟨2, ![1, N]⟩ ![1] h1 b))
      = dense x w (fun a => b (ix1 a)) := by
  funext j
  obtain ⟨p, q, rfl⟩ : ∃ (p : Fin M) (q : Fin N), j = ix2 p q := ⟨j 0, j 1, eq_ix2 j⟩
  have hq : q.val = if N = 1 then 0 else q.val := by
    split_ifs with hN
    · have := q.isLt; omega
    · rfl
  rw [addf_apply, Cert.Lib.Dot.hostDot_rc d hd, dense_apply]
  congr 1
  rw [broadcastInDim_apply ![0, 1] h2 _ (ix2 p q) (ix2 0 q) (fun a => by
    match a with
    | ⟨0, _⟩ => show 0 = if (1 : Nat) = 1 then 0 else _; rw [if_pos rfl]
    | ⟨1, _⟩ => exact hq)]
  exact broadcastInDim_apply ![1] h1 b (ix2 0 q) (ix1 q) (fun a => by
    match a with
    | ⟨0, _⟩ => exact hq)

/-- A vector [N] laid out as a [1, N] matrix, read in its one row, is the vector. -/
theorem row_of_reshape {N : Nat} (v : (⟨1, ![N]⟩ : Shape).Idx → EReal)
    (h : (⟨1, ![N]⟩ : Shape).ShapeCasts ⟨2, ![1, N]⟩) (a : Fin N) :
    shapeCast ⟨2, ![1, N]⟩ v h (ix2 0 a) = v (ix1 a) := by
  refine shapeCast_apply v h (ix2 0 a) (ix1 a) ?_
  rw [Shape.rowMajor_val_one, Shape.rowMajor_val_two]
  show a.val = 0 * N + a.val
  omega

/-- The clamp as the whole-matrix program spells it: the maximum with the zero word repeated to every entry. -/
theorem max_bcast {s : Shape} (x : FVec Ideal s .f32) (h : (⟨0, ![]⟩ : Shape).BroadcastsInDim s ![]) :
    maximumf x (broadcastInDim s ![] h (constant (F := Ideal) ⟨0, ![]⟩ .f32 0x00000000#32)) = clamp x := by
  funext i
  have e : broadcastInDim s ![] h (constant (F := Ideal) ⟨0, ![]⟩ .f32 0x00000000#32) i
      = constant (F := Ideal) ⟨0, ![]⟩ .f32 0x00000000#32 (fun a => a.elim0) :=
    broadcastInDim_apply (s := ⟨0, ![]⟩) (t := s) ![] h _ i (fun a => a.elim0) (fun a => a.elim0)
  rw [maximumf_apply, clamp_apply, e]
  rfl

end Cert.Mlp

end
-- ==== Proof.KernelValue.lean ====
/-
  The blocked program computes the perceptron.

  The grid has 40 points. Point t stages rows 5000 t .. 5000 t + 4999 of the features, all of each weight
  matrix, and each bias as a [1, N] row (the biases were laid out so before the launch); its body forms the
  perceptron of that block of rows and writes it to rows 5000 t .. 5000 t + 4999 of the result. Since the
  perceptron works row by row, what point t writes is block t of the perceptron of the whole feature matrix; the
  40 blocks tile the result, so the result array ends holding the perceptron of the argument arrays.
-/
import proofs.«424103_j16801912062026_3_alg».proof.Proof.Gen.KernelIdeal.Value
import proofs.«424103_j16801912062026_3_alg».proof.Proof.Dense

noncomputable section

namespace Cert.KernelIdeal.KValue

open Cert.KernelIdeal Cert.KernelIdeal.Gen Idealize.ShloMosaic Idealize.ShloMosaic.TcCoe Idealize.SL.Sem
open Idealize.ShloMosaic.Pipeline (Dat)
open Idealize.ShloMosaic.ValueIdx Cert.Mlp

variable (m : (ℓ : Loc nD τ sig) → Buf (Elt Ideal) ℓ) (ρ : Dev nD → PrngReg)

/-! ## The body's value -/

theorem rc1 : Cert.Lib.Dot.IsRowsCols dot_S5000x500_S500x128_S5000x128_1_0_0_1_n_n := ⟨rfl, rfl, rfl, rfl, rfl, rfl⟩
theorem rc2 : Cert.Lib.Dot.IsRowsCols dot_S5000x128_S128x64_S5000x64_1_0_0_1_n_n := ⟨rfl, rfl, rfl, rfl, rfl, rfl⟩
theorem rc3 : Cert.Lib.Dot.IsRowsCols dot_S5000x64_S64x7_S5000x7_1_0_0_1_n_n := ⟨rfl, rfl, rfl, rfl, rfl, rfl⟩

/-- What the body stores is the perceptron of the feature block it loaded, with the loaded weights and the
    loaded bias rows. -/
theorem payload_eq (x0 : Vec Ideal S5000x500 .f32) (x1 : Vec Ideal S500x128 .f32) (x2 : Vec Ideal S1x128 .f32)
    (x3 : Vec Ideal S128x64 .f32) (x4 : Vec Ideal S1x64 .f32) (x5 : Vec Ideal S64x7 .f32) (x6 : Vec Ideal S1x7 .f32) :
    k0_pay1 (F := Ideal) x0 x1 x2 x3 x4 x5 x6
      = mlp x0 x1 (fun a => x2 (ix2 0 a)) x3 (fun a => x4 (ix2 0 a)) x5 (fun a => x6 (ix2 0 a)) := by
  unfold k0_pay1
  dsimp only
  rw [matmul_layer dot_S5000x500_S500x128_S5000x128_1_0_0_1_n_n rc1 x0 x1 x2 bitsLt_bf16_f32 shapeCasts_S1x128_S1x128 broadcasts_S1x128_S5000x128,
    max_splat,
    matmul_layer dot_S5000x128_S128x64_S5000x64_1_0_0_1_n_n rc2 _ x3 x4 bitsLt_bf16_f32 shapeCasts_S1x64_S1x64 broadcasts_S1x64_S5000x64,
    max_splat,
    matmul_layer dot_S5000x64_S64x7_S5000x7_1_0_0_1_n_n rc3 _ x5 x6 bitsLt_bf16_f32 shapeCasts_S1x7_S1x7 broadcasts_S1x7_S5000x7]
  rfl

/-- Row p of the block of 5000 rows numbered T. -/
def blockRow (T : Nat) (hT : T < 40) (p : Fin 5000) : Fin 200000 :=
  ⟨T * 5000 + p.val, by have := p.isLt; omega⟩

/-- A block of rows: if `x0` is rows 5000 T .. of `X`, the loaded weights are the weight arrays and the loaded bias
    rows are the bias vectors, then the body's perceptron at (p, q) is the whole perceptron at (5000 T + p, q). -/
theorem block_entry (X : S200000x500.Idx → EReal) (W1 : S500x128.Idx → EReal) (B1 : S128.Idx → EReal)
    (W2 : S128x64.Idx → EReal) (B2 : S64.Idx → EReal) (W3 : S64x7.Idx → EReal) (B3 : S7.Idx → EReal)
    (x0 : S5000x500.Idx → EReal) (x1 : S500x128.Idx → EReal) (x2 : S1x128.Idx → EReal)
    (x3 : S128x64.Idx → EReal) (x4 : S1x64.Idx → EReal) (x5 : S64x7.Idx → EReal) (x6 : S1x7.Idx → EReal)
    (T : Nat) (hT : T < 40)
    (h0 : ∀ (p : Fin 5000) (k : Fin 500), x0 (ix2 p k) = X (ix2 (blockRow T hT p) k))
    (h1 : x1 = W1) (h2 : ∀ a : Fin 128, x2 (ix2 0 a) = B1 (ix1 a))
    (h3 : x3 = W2) (h4 : ∀ a : Fin 64, x4 (ix2 0 a) = B2 (ix1 a))
    (h5 : x5 = W3) (h6 : ∀ a : Fin 7, x6 (ix2 0 a) = B3 (ix1 a))
    (j : S5000x7.Idx) (i : S200000x7.Idx) (hi0 : (i 0).val = T * 5000 + (j 0).val) (hi1 : (i 1).val = (j 1).val) :
    mlp x0 x1 (fun a => x2 (ix2 0 a)) x3 (fun a => x4 (ix2 0 a)) x5 (fun a => x6 (ix2 0 a)) j
      = G X W1 B1 W2 B2 W3 B3 i := by
  subst h1 h3 h5
  rw [show (fun a => x2 (ix2 0 a)) = fun a => B1 (ix1 a) from funext h2,
    show (fun a => x4 (ix2 0 a)) = fun a => B2 (ix1 a) from funext h4,
    show (fun a => x6 (ix2 0 a)) = fun a => B3 (ix1 a) from funext h6]
  obtain ⟨p, q, rfl⟩ : ∃ (p : Fin 5000) (q : Fin 7), j = ix2 p q := ⟨j 0, j 1, eq_ix2 j⟩
  obtain ⟨r, q', rfl⟩ : ∃ (r : Fin 200000) (q' : Fin 7), i = ix2 r q' := ⟨i 0, i 1, eq_ix2 i⟩
  have hr : r = blockRow T hT p := Fin.ext hi0
  have hq : q' = q := Fin.ext hi1
  rw [hr, hq]
  exact mlp_rows X x0 (blockRow T hT) h0 x1 _ x3 _ x5 _ p q

/-! ## The arrays the windows stage -/

theorem hz : (![0, 0] : Fin 2 → Nat) = fun _ => 0 := funext fun a => by fin_cases a <;> rfl

/-- The block index of every window at every point, decided over the 40 points: the features' and the
    result's row block is the point's number, everything else is block 0. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- Before the launch the first bias was laid out as a [1, 128] row. -/
theorem V_main_v0 (c : Dev nD) :
    (V m c main_v0 : S1x128.Idx → EReal) = shapeCast S1x128 (m ((c : Thread nD τ).loc main_arg3)) shapeCasts_S128_S1x128 := by
  dsimp only [Gen.V, Gen.hostOps0]
  after_results
  rfl

/-- The second bias as a [1, 64] row. -/
theorem V_main_v1 (c : Dev nD) :
    (V m c main_v1 : S1x64.Idx → EReal) = shapeCast S1x64 (m ((c : Thread nD τ).loc main_arg5)) shapeCasts_S64_S1x64 := by
  dsimp only [Gen.V, Gen.hostOps0]
  after_results
  rfl

/-- The third bias as a [1, 7] row. -/
theorem V_main_v2 (c : Dev nD) :
    (V m c main_v2 : S1x7.Idx → EReal) = shapeCast S1x7 (m ((c : Thread nD τ).loc main_arg7)) shapeCasts_S7_S1x7 := by
  dsimp only [Gen.V, Gen.hostOps0]
  after_results
  rfl

/-- The perceptron of the argument arrays as launched. -/
abbrev result (c : Dev nD) : S200000x7.Idx → EReal :=
  G (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))
    (m ((c : Thread nD τ).loc main_arg7))

/-! ## What a point writes back -/

/-- The feature block at point t is rows 5000 t .. of the feature array. -/
theorem feat_block (c : Dev nD) (t : Fin cfg0.N) (p : Fin 5000) (k : Fin 500) :
    (iblk m c 0 t : S5000x500.Idx → EReal) (ix2 p k)
      = m ((c : Thread nD τ).loc main_arg1) (ix2 (blockRow t.val t.isLt p) k) := by
  obtain ⟨e00, e01, -⟩ := idx_facts t
  show V m c main_arg1 (((cfg0.win 0).blk t).view.emb (ix2 p k)) = _
  rw [V_main_arg1]
  refine congrArg (m ((c : Thread nD τ).loc main_arg1)) (funext fun a => Fin.ext ?_)
  match a with
  | ⟨0, _⟩ => show win0_0.index t (0 : Fin 2) * 5000 + 1 * p.val = t.val * 5000 + p.val; omega
  | ⟨1, _⟩ => show win0_0.index t (1 : Fin 2) * 500 + 1 * k.val = k.val; omega

/-- The first weight window's block at any point is the whole array. -/
theorem w1_block (c : Dev nD) (t : Fin cfg0.N) :
    (iblk m c 1 t : S500x128.Idx → EReal) = m ((c : Thread nD τ).loc main_arg2) := by
  have e := idx_facts t
  funext y
  show V m c main_arg2 (((cfg0.win 1).blk t).view.emb y) = _
  rw [V_main_arg2]
  refine congrArg (m ((c : Thread nD τ).loc main_arg2)) (funext fun a => Fin.ext ?_)
  match a with
  | ⟨0, _⟩ => show win0_1.index t (0 : Fin 2) * 500 + 1 * (y 0).val = (y 0).val; omega
  | ⟨1, _⟩ => show win0_1.index t (1 : Fin 2) * 128 + 1 * (y 1).val = (y 1).val; omega

/-- The second weight window's block at any point is the whole array. -/
theorem w2_block (c : Dev nD) (t : Fin cfg0.N) :
    (iblk m c 3 t : S128x64.Idx → EReal) = m ((c : Thread nD τ).loc main_arg4) := by
  have e := idx_facts t
  funext y
  show V m c main_arg4 (((cfg0.win 3).blk t).view.emb y) = _
  rw [V_main_arg4]
  refine congrArg (m ((c : Thread nD τ).loc main_arg4)) (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

/-- The third weight window's block at any point is the whole array. -/
theorem w3_block (c : Dev nD) (t : Fin cfg0.N) :
    (iblk m c 5 t : S64x7.Idx → EReal) = m ((c : Thread nD τ).loc main_arg6) := by
  have e := idx_facts t
  funext y
  show V m c main_arg6 (((cfg0.win 5).blk t).view.emb y) = _
  rw [V_main_arg6]
  refine congrArg (m ((c : Thread nD τ).loc main_arg6)) (funext fun a => Fin.ext ?_)
  match a with
  | ⟨0, _⟩ => show win0_5.index t (0 : Fin 2) * 64 + 1 * (y 0).val = (y 0).val; omega
  | ⟨1, _⟩ => show win0_5.index t (1 : Fin 2) * 7 + 1 * (y 1).val = (y 1).val; omega

/-- The first bias row at any point, read in its one row, is the bias vector. -/
theorem b1_row (c : Dev nD) (t : Fin cfg0.N) (a : Fin 128) :
    (iblk m c 2 t : S1x128.Idx → EReal) (ix2 0 a) = m ((c : Thread nD τ).loc main_arg3) (ix1 a) := by
  have e := idx_facts t
  show (V m c main_v0 : S1x128.Idx → EReal) (((cfg0.win 2).blk t).view.emb (ix2 0 a)) = _
  have e' : ((cfg0.win 2).blk t).view.emb (ix2 0 a) = (ix2 0 a : S1x128.Idx) := funext fun d => Fin.ext (by
    match d with
    | ⟨0, _⟩ => show win0_2.index t (0 : Fin 2) * 1 + 1 * 0 = 0; omega
    | ⟨1, _⟩ => show win0_2.index t (1 : Fin 2) * 128 + 1 * a.val = a.val; omega)
  rw [e', V_main_v0]
  exact row_of_reshape _ shapeCasts_S128_S1x128 a

/-- The second bias row at any point, read in its one row, is the bias vector. -/
theorem b2_row (c : Dev nD) (t : Fin cfg0.N) (a : Fin 64) :
    (iblk m c 4 t : S1x64.Idx → EReal) (ix2 0 a) = m ((c : Thread nD τ).loc main_arg5) (ix1 a) := by
  have e := idx_facts t
  show (V m c main_v1 : S1x64.Idx → EReal) (((cfg0.win 4).blk t).view.emb (ix2 0 a)) = _
  have e' : ((cfg0.win 4).blk t).view.emb (ix2 0 a) = (ix2 0 a : S1x64.Idx) := funext fun d => Fin.ext (by
    match d with
    | ⟨0, _⟩ => show win0_4.index t (0 : Fin 2) * 1 + 1 * 0 = 0; omega
    | ⟨1, _⟩ => show win0_4.index t (1 : Fin 2) * 64 + 1 * a.val = a.val; omega)
  rw [e', V_main_v1]
  exact row_of_reshape _ shapeCasts_S64_S1x64 a

/-- The third bias row at any point, read in its one row, is the bias vector. -/
theorem b3_row (c : Dev nD) (t : Fin cfg0.N) (a : Fin 7) :
    (iblk m c 6 t : S1x7.Idx → EReal) (ix2 0 a) = m ((c : Thread nD τ).loc main_arg7) (ix1 a) := by
  have e := idx_facts t
  show (V m c main_v2 : S1x7.Idx → EReal) (((cfg0.win 6).blk t).view.emb (ix2 0 a)) = _
  have e' : ((cfg0.win 6).blk t).view.emb (ix2 0 a) = (ix2 0 a : S1x7.Idx) := funext fun d => Fin.ext (by
    match d with
    | ⟨0, _⟩ => show win0_6.index t (0 : Fin 2) * 1 + 1 * 0 = 0; omega
    | ⟨1, _⟩ => show win0_6.index t (1 : Fin 2) * 7 + 1 * a.val = a.val; omega)
  rw [e', V_main_v2]
  exact row_of_reshape _ shapeCasts_S7_S1x7 a

/-- WHAT POINT t WRITES BACK is block t of the perceptron of the argument arrays. -/
theorem flushed_eq (c : Dev nD) (t : Fin cfg0.N) :
    (dats m 0 c).flushed 7 t = ((cfg0.win 7).blk t).view.read (Elt Ideal) (result m c) := by
  rw [Value.flushed7]
  unfold out0_7
  rw [View.canon_unit_zero hz]
  simp only [View.ld_unit_zero (S := S5000x500) hz, View.ld_unit_zero (S := S500x128) hz,
    View.ld_unit_zero (S := S1x128) hz, View.ld_unit_zero (S := S128x64) hz, View.ld_unit_zero (S := S1x64) hz,
    View.ld_unit_zero (S := S64x7) hz, View.ld_unit_zero (S := S1x7) hz]
  rw [payload_eq]
  have e := idx_facts t
  funext j
  show mlp (iblk m c 0 t : S5000x500.Idx → EReal) (iblk m c 1 t : S500x128.Idx → EReal)
      (fun a => (iblk m c 2 t : S1x128.Idx → EReal) (ix2 0 a)) (iblk m c 3 t : S128x64.Idx → EReal)
      (fun a => (iblk m c 4 t : S1x64.Idx → EReal) (ix2 0 a)) (iblk m c 5 t : S64x7.Idx → EReal)
      (fun a => (iblk m c 6 t : S1x7.Idx → EReal) (ix2 0 a)) j
    = result m c (((cfg0.win 7).blk t).view.emb j)
  exact block_entry (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))
    (iblk m c 0 t) (iblk m c 1 t) (iblk m c 2 t) (iblk m c 3 t) (iblk m c 4 t) (iblk m c 5 t) (iblk m c 6 t)
    t.val t.isLt (feat_block m c t) (w1_block m c t) (b1_row m c t) (w2_block m c t) (b2_row m c t)
    (w3_block m c t) (b3_row m c t) j (((cfg0.win 7).blk t).view.emb j)
    (by show win0_7.index t (0 : Fin 2) * 5000 + 1 * (j 0).val = t.val * 5000 + (j 0).val; omega)
    (by show win0_7.index t (1 : Fin 2) * 7 + 1 * (j 1).val = (j 1).val; omega)

/-! ## The blocks tile the result -/

/-- An index of the result is in point t's block iff each coordinate is in the block's range on its axis. -/
theorem mem_blk (t : Fin cfg0.N) (i : S200000x7.Idx) :
    i ∈ ((cfg0.win 7).blk t).view.set ↔ ∀ a : Fin 2, win0_7.index t a * S5000x7.size a ≤ (i a).val
      ∧ (i a).val < win0_7.index t a * S5000x7.size a + S5000x7.size a := by
  show i ∈ ((View.whole main_v3).slice (win0_7.rect t)).set ↔ _
  rw [View.set_slice_whole, Rect.mem_set_unit]
  exact Iff.rfl

/-- Row r of the result is in the block of point r / 5000. -/
theorem cover (i : S200000x7.Idx) :
    ∃ t : Fin cfg0.N, (cfg0.win 7).flush t = true ∧ i ∈ ((cfg0.win 7).blk t).view.set := by
  have hi0 : (i 0).val < 200000 := (i 0).isLt
  have hi1 : (i 1).val < 7 := (i 1).isLt
  have hN : cfg0.N = 40 := N_0
  have ht : (i 0).val / 5000 < cfg0.N := by rw [hN]; omega
  have e := idx_facts ⟨(i 0).val / 5000, ht⟩
  refine ⟨⟨(i 0).val / 5000, ht⟩, flush0_7 _, ?_⟩
  rw [mem_blk]
  intro a
  match a with
  | ⟨0, _⟩ =>
    show win0_7.index ⟨(i 0).val / 5000, ht⟩ (0 : Fin 2) * 5000 ≤ (i 0).val
      ∧ (i 0).val < win0_7.index ⟨(i 0).val / 5000, ht⟩ (0 : Fin 2) * 5000 + 5000
    have e70 : win0_7.index ⟨(i 0).val / 5000, ht⟩ (0 : Fin 2) = (i 0).val / 5000 := e.2.2.2.2.2.2.2.2.2.2.2.2.2.2.1
    omega
  | ⟨1, _⟩ =>
    show win0_7.index ⟨(i 0).val / 5000, ht⟩ (1 : Fin 2) * 7 ≤ (i 1).val
      ∧ (i 1).val < win0_7.index ⟨(i 0).val / 5000, ht⟩ (1 : Fin 2) * 7 + 7
    have e71 : win0_7.index ⟨(i 0).val / 5000, ht⟩ (1 : Fin 2) = 0 := e.2.2.2.2.2.2.2.2.2.2.2.2.2.2.2
    omega

/-! ## The result array and the run -/

/-- The result array after the run is the perceptron of the argument arrays. -/
theorem final (c : Dev nD) : (dats m 0 c).arrAt 7 cfg0.N = result m c :=
  (dats m 0 c).arrAt_eq_of_cover 7 (result m c) (fun t _ => flushed_eq m c t) cover

/-- Every weakly fair execution of the blocked program ends with the result array at the perceptron of the
    argument arrays, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.KValue

end
-- ==== Proof.RefValue.lean ====
/-
  The whole-matrix program computes the perceptron.

  Its run ends with the result at: the host product of the features with the first weights, plus the first bias
  repeated down the rows, clamped at zero; that against the second weights, plus the second bias, clamped; that
  against the third weights plus the third bias. Layer by layer this is the dense layer and the clamp, so the
  whole term is the perceptron of the argument arrays.
-/
import proofs.«424103_j16801912062026_3_alg».proof.Proof.Gen.ReferenceIdeal.Read
import proofs.«424103_j16801912062026_3_alg».proof.Proof.Dense

noncomputable section

namespace Cert.ReferenceIdeal.RefValue

open Cert.ReferenceIdeal Cert.ReferenceIdeal.Gen Idealize.ShloMosaic Idealize.ShloMosaic.TcCoe
open Idealize.ShloMosaic.ValueIdx Cert.Mlp

/-- The three products are rows by columns. -/
theorem rc1 : Cert.Lib.Dot.IsRowsCols dot_S200000x500_S500x128_S200000x128_1_0_0_1_n_n := ⟨rfl, rfl, rfl, rfl, rfl, rfl⟩
theorem rc2 : Cert.Lib.Dot.IsRowsCols dot_S200000x128_S128x64_S200000x64_1_0_0_1_n_n := ⟨rfl, rfl, rfl, rfl, rfl, rfl⟩
theorem rc3 : Cert.Lib.Dot.IsRowsCols dot_S200000x64_S64x7_S200000x7_1_0_0_1_n_n := ⟨rfl, rfl, rfl, rfl, rfl, rfl⟩

/-- The result stage of the whole-matrix program is the perceptron of its arguments. -/
theorem result_eq (X : FVec Ideal S200000x500 .f32) (W1 : FVec Ideal S500x128 .f32) (B1 : FVec Ideal S128 .f32)
    (W2 : FVec Ideal S128x64 .f32) (B2 : FVec Ideal S64 .f32) (W3 : FVec Ideal S64x7 .f32) (B3 : FVec Ideal S7 .f32) :
    Read.val_main_v13 (F := Ideal) X W1 B1 W2 B2 W3 B3
      = mlp X W1 (fun a => B1 (ix1 a)) W2 (fun a => B2 (ix1 a)) W3 (fun a => B3 (ix1 a)) := by
  rw [← Read.val_main_v13_eq]
  rw [host_layer dot_S200000x500_S500x128_S200000x128_1_0_0_1_n_n rc1 X W1 B1 bcast_S128_S1x128_1 bcast_S1x128_S200000x128_0_1,
    max_bcast _ bcast_S_S200000x128,
    host_layer dot_S200000x128_S128x64_S200000x64_1_0_0_1_n_n rc2 _ W2 B2 bcast_S64_S1x64_1 bcast_S1x64_S200000x64_0_1,
    max_bcast _ bcast_S_S200000x64,
    host_layer dot_S200000x64_S64x7_S200000x7_1_0_0_1_n_n rc3 _ W3 B3 bcast_S7_S1x7_1 bcast_S1x7_S200000x7_0_1]
  rfl

end Cert.ReferenceIdeal.RefValue

end
-- ==== Proof.lean ====
/-
  A three-layer perceptron over 200000 rows of 500 features (layers of 128, 64 and 7 units, a clamp at zero
  after the first two), computed 5000 rows at a time by a blocked program, against the same perceptron computed
  on the whole matrix.

  Over the extended reals a change of float format is the identity, so the blocked program's narrowing of its
  operands before each product changes nothing, and both programs form, for every row i and output unit j, the
  same nested sums of the same products: out (i, j) = sum over b of h2 (i, b) * W3 (b, j) + b3 j, with
  h2 (i, b) = max (sum over a of h1 (i, a) * W2 (a, b) + b2 b) 0 and
  h1 (i, a) = max (sum over k of x (i, k) * W1 (k, a) + b1 a) 0. No law that needs finiteness is used.

  Proof/Dense.lean states the perceptron once and shows that its rows are independent; Proof/KernelValue.lean
  shows that the blocked program's result array ends holding it (each grid point writes its block of rows, and
  the 40 blocks tile the array); Proof/RefValue.lean shows that the whole-matrix program's result is it. The
  frames of the two blocked programs are the generated ones; the whole-matrix program's frame is its generated
  run with the result dropped. The idealization rewrote nothing, so there is nothing to preserve.
-/
import proofs.«424103_j16801912062026_3_alg».proof.Defs
import proofs.«424103_j16801912062026_3_alg».proof.Proof.Gen.Kernel
import proofs.«424103_j16801912062026_3_alg».proof.Proof.Gen.Kernel.Skeleton
import proofs.«424103_j16801912062026_3_alg».proof.Proof.Gen.Kernel.Launch
import proofs.«424103_j16801912062026_3_alg».proof.Proof.Gen.Kernel.Points
import proofs.«424103_j16801912062026_3_alg».proof.Proof.Gen.Kernel.Frame
import proofs.«424103_j16801912062026_3_alg».proof.Proof.Gen.KernelIdeal
import proofs.«424103_j16801912062026_3_alg».proof.Proof.Gen.KernelIdeal.Skeleton
import proofs.«424103_j16801912062026_3_alg».proof.Proof.Gen.KernelIdeal.Launch
import proofs.«424103_j16801912062026_3_alg».proof.Proof.Gen.KernelIdeal.Points
import proofs.«424103_j16801912062026_3_alg».proof.Proof.Gen.KernelIdeal.Frame
import proofs.«424103_j16801912062026_3_alg».proof.Proof.Gen.ReferenceIdeal
import proofs.«424103_j16801912062026_3_alg».proof.Proof.Gen.Pre_finite_inputs
import proofs.«424103_j16801912062026_3_alg».proof.Proof.Gen.KernelIdeal.Value
import proofs.«424103_j16801912062026_3_alg».proof.Proof.Gen.ReferenceIdeal.Run
import proofs.«424103_j16801912062026_3_alg».proof.Proof.Gen.ReferenceIdeal.Read
import proofs.«424103_j16801912062026_3_alg».proof.Proof.KernelValue
import proofs.«424103_j16801912062026_3_alg».proof.Proof.RefValue
import Idealize.ShloMosaic.Adequacy
import Idealize.ShloMosaic.Init

noncomputable section

namespace Cert.Proof

open Idealize.ShloMosaic Idealize.SL.Sem

/-- The blocked program as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The whole-matrix program runs and leaves its arguments alone: its run, with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the perceptron of those arguments in their
    result arrays. -/
theorem algebraic : Cert.algebraic_KernelIdeal_ReferenceIdeal := by
  intro m ρ m' ρ' _ hagree
  refine ⟨fun c => Cert.KernelIdeal.KValue.result m c, Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq]
  obtain ⟨-, h1, h2, h3, h4, h5, h6, h7⟩ := hagree c
  rw [h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
